-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x64 : Shape := ⟨4, ![16, 256, 256, 64]⟩
abbrev S16x256x3x64 : Shape := ⟨4, ![16, 256, 3, 64]⟩
abbrev S64x3x16576 : Shape := ⟨3, ![64, 3, 16576]⟩
abbrev S64x3 : Shape := ⟨2, ![64, 3]⟩
abbrev S_ : Shape := ⟨0, ![]⟩

class Facts : Prop where
  bcast_S_S16x256x256x64 : S_.BroadcastsInDim S16x256x256x64 (![] : Fin 0 → Fin S16x256x256x64.rank)
  reducesTo_S16x256x256x64_S_d0_1_2_3 : S16x256x256x64.ReducesTo [0, 1, 2, 3] S_
  h_S_ : 0 < S_.numel
  bcast_S_S16x256x3x64 : S_.BroadcastsInDim S16x256x3x64 (![] : Fin 0 → Fin S16x256x3x64.rank)
  reducesTo_S16x256x3x64_S_d0_1_2_3 : S16x256x3x64.ReducesTo [0, 1, 2, 3] S_
  bcast_S_S64x3x16576 : S_.BroadcastsInDim S64x3x16576 (![] : Fin 0 → Fin S64x3x16576.rank)
  reducesTo_S64x3x16576_S_d0_1_2 : S64x3x16576.ReducesTo [0, 1, 2] S_
  bcast_S_S64x3 : S_.BroadcastsInDim S64x3 (![] : Fin 0 → Fin S64x3.rank)
  reducesTo_S64x3_S_d0_1 : S64x3.ReducesTo [0, 1] S_

variable [Facts]

def fn_part1 {F : FTy → Type} [FloatOps F] (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  main_v18

def fn {F : FTy → Type} [FloatOps F] (main_arg0 : FVec F S16x256x256x64 .f32) (main_arg1 : FVec F S16x256x3x64 .f32) (main_arg2 : FVec F S64x3x16576 .f32) (main_arg3 : FVec F S64x3 .f32) : IVec S_ 1 :=
  let main_v0 : FVec F S16x256x256x64 .f32 := Host.absf main_arg0
  let main_cst : FVec F S_ .f32 := constant S_ .f32 0x7F800000#32
  let main_v1 : FVec F S16x256x256x64 .f32 := broadcastInDim S16x256x256x64 ![] bcast_S_S16x256x256x64 main_cst
  let main_v2 : IVec S16x256x256x64 1 := cmpf .olt main_v0 main_v1
  let main_c : IVec S_ 1 := constantI S_ 1 1#1
  let main_v3 : IVec S_ 1 := (fun x v => Host.reduce IntOp.andi x v reducesTo_S16x256x256x64_S_d0_1_2_3 h_S_) main_v2 main_c
  let main_v4 : FVec F S16x256x3x64 .f32 := Host.absf main_arg1
  let main_cst_0 : FVec F S_ .f32 := constant S_ .f32 0x7F800000#32
  let main_v5 : FVec F S16x256x3x64 .f32 := broadcastInDim S16x256x3x64 ![] bcast_S_S16x256x3x64 main_cst_0
  let main_v6 : IVec S16x256x3x64 1 := cmpf .olt main_v4 main_v5
  let main_c_1 : IVec S_ 1 := constantI S_ 1 1#1
  let main_v7 : IVec S_ 1 := (fun x v => Host.reduce IntOp.andi x v reducesTo_S16x256x3x64_S_d0_1_2_3 h_S_) main_v6 main_c_1
  let main_v8 : IVec S_ 1 := andi main_v3 main_v7
  let main_v9 : FVec F S64x3x16576 .f32 := Host.absf main_arg2
  let main_cst_2 : FVec F S_ .f32 := constant S_ .f32 0x7F800000#32
  let main_v10 : FVec F S64x3x16576 .f32 := broadcastInDim S64x3x16576 ![] bcast_S_S64x3x16576 main_cst_2
  let main_v11 : IVec S64x3x16576 1 := cmpf .olt main_v9 main_v10
  let main_c_3 : IVec S_ 1 := constantI S_ 1 1#1
  let main_v12 : IVec S_ 1 := (fun x v => Host.reduce IntOp.andi x v reducesTo_S64x3x16576_S_d0_1_2 h_S_) main_v11 main_c_3
  let main_v13 : IVec S_ 1 := andi main_v8 main_v12
  let main_v14 : FVec F S64x3 .f32 := Host.absf main_arg3
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_v13 main_v16
-- ==== Kernel.lean ====
abbrev S16x256x256x64 : Shape := ⟨4, ![16, 256, 256, 64]⟩
abbrev S16x256x3x64 : Shape := ⟨4, ![16, 256, 3, 64]⟩
abbrev S64x3x16576 : Shape := ⟨3, ![64, 3, 16576]⟩
abbrev S64x3 : Shape := ⟨2, ![64, 3]⟩
abbrev S16576x3x64 : Shape := ⟨3, ![16576, 3, 64]⟩
abbrev S16576x192 : Shape := ⟨2, ![16576, 192]⟩
abbrev S16384x192 : Shape := ⟨2, ![16384, 192]⟩
abbrev S192x192 : Shape := ⟨2, ![192, 192]⟩
abbrev S3x64 : Shape := ⟨2, ![3, 64]⟩
abbrev S1x32x256x64 : Shape := ⟨4, ![1, 32, 256, 64]⟩
abbrev S1x256x3x64 : Shape := ⟨4, ![1, 256, 3, 64]⟩
abbrev S2048x192 : Shape := ⟨2, ![2048, 192]⟩
abbrev S256x192 : Shape := ⟨2, ![256, 192]⟩
abbrev S256x3x64 : Shape := ⟨3, ![256, 3, 64]⟩
abbrev S32x256x64 : Shape := ⟨3, ![32, 256, 64]⟩
abbrev S256x32x64 : Shape := ⟨3, ![256, 32, 64]⟩
abbrev S256x2048 : Shape := ⟨2, ![256, 2048]⟩
abbrev S1x3x64 : Shape := ⟨3, ![1, 3, 64]⟩

abbrev nBuf : Space → Nat
  | .hbm => 12
  | .vmem => 11
  | .smem => 0
  | _ => 0

abbrev bufTy : (tb : Table) → Fin (tcTables nBuf tb) → BufTy
  | .hbm, ⟨0, _⟩ => ⟨S16x256x256x64, .f32⟩
  | .hbm, ⟨1, _⟩ => ⟨S16x256x3x64, .f32⟩
  | .hbm, ⟨2, _⟩ => ⟨S64x3x16576, .f32⟩
  | .hbm, ⟨3, _⟩ => ⟨S64x3, .f32⟩
  | .hbm, ⟨4, _⟩ => ⟨S16576x3x64, .f32⟩
  | .hbm, ⟨5, _⟩ => ⟨S16576x192, .f32⟩
  | .hbm, ⟨6, _⟩ => ⟨S16384x192, .f32⟩
  | .hbm, ⟨7, _⟩ => ⟨S16384x192, .bf16⟩
  | .hbm, ⟨8, _⟩ => ⟨S192x192, .f32⟩
  | .hbm, ⟨9, _⟩ => ⟨S192x192, .bf16⟩
  | .hbm, ⟨10, _⟩ => ⟨S3x64, .f32⟩
  | .hbm, ⟨11, _⟩ => ⟨S16x256x3x64, .f32⟩
  | .local _ .vmem, ⟨0, _⟩ => ⟨S1x32x256x64, .f32⟩
  | .local _ .vmem, ⟨1, _⟩ => ⟨S1x32x256x64, .f32⟩
  | .local _ .vmem, ⟨2, _⟩ => ⟨S1x256x3x64, .f32⟩
  | .local _ .vmem, ⟨3, _⟩ => ⟨S1x256x3x64, .f32⟩
  | .local _ .vmem, ⟨4, _⟩ => ⟨S2048x192, .bf16⟩
  | .local _ .vmem, ⟨5, _⟩ => ⟨S2048x192, .bf16⟩
  | .local _ .vmem, ⟨6, _⟩ => ⟨S192x192, .bf16⟩
  | .local _ .vmem, ⟨7, _⟩ => ⟨S3x64, .f32⟩
  | .local _ .vmem, ⟨8, _⟩ => ⟨S1x256x3x64, .f32⟩
  | .local _ .vmem, ⟨9, _⟩ => ⟨S1x256x3x64, .f32⟩
  | .local _ .vmem, ⟨10, _⟩ => ⟨S256x192, .f32⟩
  | _, _ => ⟨S16x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_10 : BitVec 32 := 0#32
  let v18 : BitVec 1 := Scalar.cmpi .ne v17 c0_i32_10
  v18

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S64x3x16576_S16576x3x64_2_1_0 : S64x3x16576.Transposes [2, 1, 0] S16576x3x64
  shapeCasts_S16576x3x64_S16576x192 : S16576x3x64.ShapeCasts S16576x192
  slices_S16576x192_S16384x192_0_0 : S16576x192.Slices ![0, 0] S16384x192
  bitsLt_bf16_f32 : FTy.bits .bf16 < FTy.bits .f32
  slices_S16576x192_S192x192_16384_0 : S16576x192.Slices ![16384, 0] S192x192
  transposes_S64x3_S3x64_1_0 : S64x3.Transposes [1, 0] S3x64
  inb_S1x256x3x64_S1x256x3x64_0_0_0_0 : ∀ a, (![0, 0, 0, 0] : Fin 4 → Nat) a + S1x256x3x64.size a ≤ S1x256x3x64.size a
  h_S1x256x3x64 : 0 < S1x256x3x64.numel
  shapeCasts_S1x256x3x64_S256x3x64 : S1x256x3x64.ShapeCasts S256x3x64
  shapeCasts_S256x3x64_S256x192 : S256x3x64.ShapeCasts S256x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S1x32x256x64_S1x32x256x64_0_0_0_0 : ∀ a, (![0, 0, 0, 0] : Fin 4 → Nat) a + S1x32x256x64.size a ≤ S1x32x256x64.size a
  h_S1x32x256x64 : 0 < S1x32x256x64.numel
  shapeCasts_S1x32x256x64_S32x256x64 : S1x32x256x64.ShapeCasts S32x256x64
  transposes_S32x256x64_p1_0_2_S256x32x64 : S32x256x64.Transposes [1, 0, 2] S256x32x64
  shapeCasts_S256x32x64_S256x2048 : S256x32x64.ShapeCasts S256x2048
  inb_S2048x192_S2048x192_0_0 : ∀ a, (![0, 0] : Fin 2 → Nat) a + S2048x192.size a ≤ S2048x192.size a
  h_S2048x192 : 0 < S2048x192.numel
  shapeCasts_S2048x192_S2048x192 : S2048x192.ShapeCasts S2048x192
  shapeCasts_S256x192_S256x3x64 : S256x192.ShapeCasts S256x3x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  shapeCasts_S3x64_S1x3x64 : S3x64.ShapeCasts S1x3x64
  broadcasts_S1x3x64_S256x3x64 : S1x3x64.Broadcasts S256x3x64
  shapeCasts_S256x3x64_S1x256x3x64 : S256x3x64.ShapeCasts S1x256x3x64
  dot_S256x192_S192x192_S256x192_1_0_0_1_n_n_wf : DotDims.WF S256x192 S192x192 S256x192 [1] [0] [0] [1] [] []
  dot_S256x2048_S2048x192_S256x192_1_0_0_1_n_n_wf : DotDims.WF S256x2048 S2048x192 S256x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x64.size a ≤ S16x256x256x64.size a
  hwx0_0 : ∀ i : grid0.Coords, EltTy.bits .f32 = 32 ∨ (Rect.block (s := S16x256x256x64) S1x32x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3x64.size a ≤ S16x256x3x64.size a
  hwx0_1 : ∀ i : grid0.Coords, EltTy.bits .f32 = 32 ∨ (Rect.block (s := S16x256x3x64) S1x256x3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x192.size a ≤ S16384x192.size a
  hwx0_2 : ∀ i : grid0.Coords, EltTy.bits .bf16 = 32 ∨ (Rect.block (s := S16384x192) S2048x192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x192.size a ≤ S192x192.size a
  hwx0_3 : ∀ i : grid0.Coords, EltTy.bits .bf16 = 32 ∨ (Rect.block (s := S192x192) S192x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x3x64.size a ≤ S16x256x3x64.size a
  hwx0_5 : ∀ i : grid0.Coords, EltTy.bits .f32 = 32 ∨ (Rect.block (s := S16x256x3x64) S1x256x3x64.size (cc0_transform_5 i) (hinb0_5 i)).WholeWords (EltTy.packing .f32)

variable [Facts₀]

def dot_S256x192_S192x192_S256x192_1_0_0_1_n_n : DotDims S256x192 S192x192 S256x192 where
  lhsContracting := [1]
  rhsContracting := [0]
  lhsNonContracting := [0]
  rhsNonContracting := [1]
  lhsBatch := []
  rhsBatch := []
  wf := dot_S256x192_S192x192_S256x192_1_0_0_1_n_n_wf
def dot_S256x2048_S2048x192_S256x192_1_0_0_1_n_n : DotDims S256x2048 S2048x192 S256x192 where
  lhsContracting := [1]
  rhsContracting := [0]
  lhsNonContracting := [0]
  rhsNonContracting := [1]
  lhsBatch := []
  rhsBatch := []
  wf := dot_S256x2048_S2048x192_S256x192_1_0_0_1_n_n_wf

abbrev win0_0 : Pipeline.Window sig grid0 :=
  Pipeline.Window.ofSpec (Memref.whole main_arg0) S1x32x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x3x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S192x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x256x3x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x256x256x64 : Shape := ⟨4, ![16, 256, 256, 64]⟩
abbrev S16x256x3x64 : Shape := ⟨4, ![16, 256, 3, 64]⟩
abbrev S64x3x16576 : Shape := ⟨3, ![64, 3, 16576]⟩
abbrev S64x3 : Shape := ⟨2, ![64, 3]⟩
abbrev S16x256x16384 : Shape := ⟨3, ![16, 256, 16384]⟩
abbrev S16x256x192 : Shape := ⟨3, ![16, 256, 192]⟩
abbrev S16x256x16576 : Shape := ⟨3, ![16, 256, 16576]⟩
abbrev S64x3x16x256 : Shape := ⟨4, ![64, 3, 16, 256]⟩
abbrev S3x64 : Shape := ⟨2, ![3, 64]⟩
abbrev S1x1x3x64 : Shape := ⟨4, ![1, 1, 3, 64]⟩

abbrev nBuf : Space → Nat
  | .hbm => 14
  | .vmem => 0
  | .smem => 0
  | _ => 0

abbrev bufTy : (tb : Table) → Fin (tcTables nBuf tb) → BufTy
  | .hbm, ⟨0, _⟩ => ⟨S16x256x256x64, .f32⟩
  | .hbm, ⟨1, _⟩ => ⟨S16x256x3x64, .f32⟩
  | .hbm, ⟨2, _⟩ => ⟨S64x3x16576, .f32⟩
  | .hbm, ⟨3, _⟩ => ⟨S64x3, .f32⟩
  | .hbm, ⟨4, _⟩ => ⟨S16x256x256x64, .f32⟩
  | .hbm, ⟨5, _⟩ => ⟨S16x256x16384, .f32⟩
  | .hbm, ⟨6, _⟩ => ⟨S16x256x192, .f32⟩
  | .hbm, ⟨7, _⟩ => ⟨S16x256x16576, .f32⟩
  | .hbm, ⟨8, _⟩ => ⟨S64x3x16x256, .f32⟩
  | .hbm, ⟨9, _⟩ => ⟨S16x256x3x64, .f32⟩
  | .hbm, ⟨10, _⟩ => ⟨S3x64, .f32⟩
  | .hbm, ⟨11, _⟩ => ⟨S1x1x3x64, .f32⟩
  | .hbm, ⟨12, _⟩ => ⟨S16x256x3x64, .f32⟩
  | .hbm, ⟨13, _⟩ => ⟨S16x256x3x64, .f32⟩
  | _, _ => ⟨S16x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  transposes_S16x256x256x64_S16x256x256x64_0_2_1_3 : S16x256x256x64.Transposes [0, 2, 1, 3] S16x256x256x64
  shapeCasts_S16x256x256x64_S16x256x16384 : S16x256x256x64.ShapeCasts S16x256x16384
  shapeCasts_S16x256x3x64_S16x256x192 : S16x256x3x64.ShapeCasts S16x256x192
  concatenates_S16x256x16384_S16x256x192_S16x256x16576_d2 : Shape.Concatenates [S16x256x16384, S16x256x192] S16x256x16576 2
  transposes_S64x3x16x256_S16x256x3x64_2_3_1_0 : S64x3x16x256.Transposes [2, 3, 1, 0] S16x256x3x64
  transposes_S64x3_S3x64_1_0 : S64x3.Transposes [1, 0] S3x64
  bcast_S3x64_S1x1x3x64_2_3 : S3x64.BroadcastsInDim S1x1x3x64 (![2, 3] : Fin 2 → Fin S1x1x3x64.rank)
  bcast_S1x1x3x64_S16x256x3x64_0_1_2_3 : S1x1x3x64.BroadcastsInDim S16x256x3x64 (![0, 1, 2, 3] : Fin 4 → Fin S16x256x3x64.rank)
  dot_S64x3x16576_S16x256x16576_S64x3x16x256_2_2_01_01_n_n_wf : DotDims.WF S64x3x16576 S16x256x16576 S64x3x16x256 [2] [2] [0, 1] [0, 1] [] []

variable [Facts₀]

def dot_S64x3x16576_S16x256x16576_S64x3x16x256_2_2_01_01_n_n : DotDims S64x3x16576 S16x256x16576 S64x3x16x256 where
  lhsContracting := [2]
  rhsContracting := [2]
  lhsNonContracting := [0, 1]
  rhsNonContracting := [0, 1]
  lhsBatch := []
  rhsBatch := []
  wf := dot_S64x3x16576_S16x256x16576_S64x3x16x256_2_2_01_01_n_n_wf

class Facts : Prop extends Facts₀ where

variable [Facts]
-- ==== Proof.Pieces.lean ====
/-
  What one run of the kernel body leaves behind, case by case, as values.

  The body keeps a 256 × 192 accumulator between the eight reduction steps of a batch entry. At the first step it
  stores the seed product into the accumulator, reads it back and adds the step's `x` product; at a later step it adds
  the step's `x` product to what the step before left; at the last step it also reads the accumulator back once more
  and stores it, with the bias added, as the output block. Each store writes its whole buffer and each load reads its
  whole buffer, so what a buffer holds after the body is the payload of the last store into it.
-/
import proofs.«108888_j54494545051886_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of every load and store of the body are zero on every axis. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/-- The FIRST step of a batch entry: the accumulator ends at the step's update of the seed product, whatever it
    held before. -/
theorem acc_A (c : Dev nD) (i : grid0.Coords) (arg2 : Memref sig .tc .vmem S1x32x256x64 .f32) (harg2 : arg2.IsWhole) (arg3 : Memref sig .tc .vmem S1x256x3x64 .f32) (harg3 : arg3.IsWhole) (arg4 : Memref sig .tc .vmem S2048x192 .bf16) (harg4 : arg4.IsWhole) (arg5 : Memref sig .tc .vmem S192x192 .bf16) (harg5 : arg5.IsWhole) (arg6 : Memref sig .tc .vmem S3x64 .f32) (harg6 : arg6.IsWhole) (arg7 : Memref sig .tc .vmem S1x256x3x64 .f32) (harg7 : arg7.IsWhole) (arg8 : Memref sig .tc .vmem S256x192 .f32) (harg8 : arg8.IsWhole) (hc0 : cond0_0 i) (hc1 : ¬cond0_1 i)
    (x0 : Vec F S1x32x256x64 .f32) (x1 : Vec F S1x256x3x64 .f32) (x2 : Vec F S2048x192 .bf16) (x3 : Vec F S192x192 .bf16) (x4 : Vec F S3x64 .f32) :
    sout0_A_0 c i arg2 harg2 arg3 harg3 arg4 harg4 arg5 harg5 arg6 harg6 arg7 harg7 arg8 harg8 hc0 hc1 x0 x1 x2 x3 x4 = k0_pay2 x0 x2 (k0_pay1 x1 x3) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S256x192) hz2, View.readCov_unit_zero (S := S256x192) _ hz2]
  simp only [View.readAt_eq_ld, harg2.read_unread, harg3.read_unread, harg4.read_unread, harg5.read_unread, harg6.read_unread, harg8.read_unread, View.ld_unit_zero (S := S1x32x256x64) hz4, View.ld_unit_zero (S := S1x256x3x64) hz4, View.ld_unit_zero (S := S2048x192) hz2, View.ld_unit_zero (S := S192x192) hz2, View.ld_unit_zero (S := S3x64) hz2, View.ld_unit_zero (S := S256x192) hz2]

/-- A LATER step that is not the last: the accumulator ends at the step's update of what it held (`xs0`). -/
theorem acc_B (c : Dev nD) (i : grid0.Coords) (arg2 : Memref sig .tc .vmem S1x32x256x64 .f32) (harg2 : arg2.IsWhole) (arg3 : Memref sig .tc .vmem S1x256x3x64 .f32) (harg3 : arg3.IsWhole) (arg4 : Memref sig .tc .vmem S2048x192 .bf16) (harg4 : arg4.IsWhole) (arg5 : Memref sig .tc .vmem S192x192 .bf16) (harg5 : arg5.IsWhole) (arg6 : Memref sig .tc .vmem S3x64 .f32) (harg6 : arg6.IsWhole) (arg7 : Memref sig .tc .vmem S1x256x3x64 .f32) (harg7 : arg7.IsWhole) (arg8 : Memref sig .tc .vmem S256x192 .f32) (harg8 : arg8.IsWhole) (hc0 : ¬cond0_0 i) (hc1 : ¬cond0_1 i)
    (x0 : Vec F S1x32x256x64 .f32) (x1 : Vec F S1x256x3x64 .f32) (x2 : Vec F S2048x192 .bf16) (x3 : Vec F S192x192 .bf16) (x4 : Vec F S3x64 .f32) (xs0 : Vec F S256x192 .f32) :
    sout0_B_0 c i arg2 harg2 arg3 harg3 arg4 harg4 arg5 harg5 arg6 harg6 arg7 harg7 arg8 harg8 hc0 hc1 x0 x1 x2 x3 x4 xs0 = k0_pay2 x0 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg8.read_unread, View.ld_unit_zero (S := S1x32x256x64) hz4, View.ld_unit_zero (S := S1x256x3x64) hz4, View.ld_unit_zero (S := S2048x192) hz2, View.ld_unit_zero (S := S192x192) hz2, View.ld_unit_zero (S := S3x64) hz2, View.ld_unit_zero (S := S256x192) hz2]

/-- The LAST step: the accumulator ends at the step's update of what it held, -/
theorem acc_C (c : Dev nD) (i : grid0.Coords) (arg2 : Memref sig .tc .vmem S1x32x256x64 .f32) (harg2 : arg2.IsWhole) (arg3 : Memref sig .tc .vmem S1x256x3x64 .f32) (harg3 : arg3.IsWhole) (arg4 : Memref sig .tc .vmem S2048x192 .bf16) (harg4 : arg4.IsWhole) (arg5 : Memref sig .tc .vmem S192x192 .bf16) (harg5 : arg5.IsWhole) (arg6 : Memref sig .tc .vmem S3x64 .f32) (harg6 : arg6.IsWhole) (arg7 : Memref sig .tc .vmem S1x256x3x64 .f32) (harg7 : arg7.IsWhole) (arg8 : Memref sig .tc .vmem S256x192 .f32) (harg8 : arg8.IsWhole) (hc0 : ¬cond0_0 i) (hc1 : cond0_1 i)
    (x0 : Vec F S1x32x256x64 .f32) (x1 : Vec F S1x256x3x64 .f32) (x2 : Vec F S2048x192 .bf16) (x3 : Vec F S192x192 .bf16) (x4 : Vec F S3x64 .f32) (xs0 : Vec F S256x192 .f32) :
    sout0_C_0 c i arg2 harg2 arg3 harg3 arg4 harg4 arg5 harg5 arg6 harg6 arg7 harg7 arg8 harg8 hc0 hc1 x0 x1 x2 x3 x4 xs0 = k0_pay2 x0 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S1x32x256x64) hz4, View.ld_unit_zero (S := S1x256x3x64) hz4, View.ld_unit_zero (S := S2048x192) hz2, View.ld_unit_zero (S := S192x192) hz2, View.ld_unit_zero (S := S3x64) hz2, View.ld_unit_zero (S := S256x192) hz2]

/-- and the output block ends at that accumulator with the bias rows added. -/
theorem out_C (c : Dev nD) (i : grid0.Coords) (arg2 : Memref sig .tc .vmem S1x32x256x64 .f32) (harg2 : arg2.IsWhole) (arg3 : Memref sig .tc .vmem S1x256x3x64 .f32) (harg3 : arg3.IsWhole) (arg4 : Memref sig .tc .vmem S2048x192 .bf16) (harg4 : arg4.IsWhole) (arg5 : Memref sig .tc .vmem S192x192 .bf16) (harg5 : arg5.IsWhole) (arg6 : Memref sig .tc .vmem S3x64 .f32) (harg6 : arg6.IsWhole) (arg7 : Memref sig .tc .vmem S1x256x3x64 .f32) (harg7 : arg7.IsWhole) (arg8 : Memref sig .tc .vmem S256x192 .f32) (harg8 : arg8.IsWhole) (hc0 : ¬cond0_0 i) (hc1 : cond0_1 i)
    (x0 : Vec F S1x32x256x64 .f32) (x1 : Vec F S1x256x3x64 .f32) (x2 : Vec F S2048x192 .bf16) (x3 : Vec F S192x192 .bf16) (x4 : Vec F S3x64 .f32) (xs0 : Vec F S256x192 .f32) :
    out0_C_5 c i arg2 harg2 arg3 harg3 arg4 harg4 arg5 harg5 arg6 harg6 arg7 harg7 arg8 harg8 hc0 hc1 x0 x1 x2 x3 x4 xs0 = k0_pay3 (k0_pay2 x0 x2 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz4]
  simp only [View.readCov_unit_zero (S := S256x192) _ hz2, View.readAt_eq_ld, harg2.read_unread, harg3.read_unread, harg4.read_unread, harg5.read_unread, harg6.read_unread, harg8.read_unread, View.ld_unit_zero (S := S1x32x256x64) hz4, View.ld_unit_zero (S := S1x256x3x64) hz4, View.ld_unit_zero (S := S2048x192) hz2, View.ld_unit_zero (S := S192x192) hz2, View.ld_unit_zero (S := S3x64) hz2, View.ld_unit_zero (S := S256x192) hz2]

end Cert.KernelIdeal.Pieces

end
-- ==== Proof.Payloads.lean ====
/-
  The three pure payloads of the kernel body, read at an index, over the extended reals.

  * The first payload flattens the seed block [1, 256, 3, 64] to a 256 × 192 matrix (entry (t, k) is the seed
    (0, t, k / 64, k % 64)) and multiplies it by a 192 × 192 block of weights, into a zero accumulator.
  * The second payload turns the x block [1, 32, 256, 64] into a 256 × 2048 matrix (entry (t, q) is
    x (0, q / 64, t, q % 64): the channel axis is moved behind the time axis, then channel and feature are flattened),
    multiplies it by a 2048 × 192 block of weights and adds the product to what the accumulator held.
  * The third payload reads the 256 × 192 accumulator as [256, 3, 64] (entry (t, c, j) is column 64 c + j),
    adds the bias entry (c, j) at every time step, and puts a unit axis in front.

  At the ideal values a rounding to a narrower format is the identity and a matrix product into the zero accumulator
  is the plain sum of products, so each payload entry is a finite sum of products of entries of its operands.
-/
import proofs.«108888_j54494545051886_1_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember

noncomputable section

namespace Cert.KernelIdeal.Payloads

open Cert.KernelIdeal Cert.KernelIdeal.Gen Idealize.ShloMosaic Idealize.ShloMosaic.ValueIdx
open scoped BigOperators

variable [Cert.KernelIdeal.Facts]

/-! ## The two matrix products into the zero accumulator -/

/-- The seed product: a 256 × 192 by 192 × 192 product into zero is the sum over the contracted coordinate. -/
theorem matmul_seed (A : FVec Ideal S256x192 .bf16) (B : FVec Ideal S192x192 .bf16) (tt : Fin 256) (col : Fin 192) :
    matmul dot_S256x192_S192x192_S256x192_1_0_0_1_n_n none A B (constant (F := Ideal) S256x192 .f32 0x00000000#32) (ix2 tt col)
      = ∑ k : Fin 192, A (ix2 tt k) * B (ix2 k col) := by
  have hd : dot_S256x192_S192x192_S256x192_1_0_0_1_n_n = DotDims.plain 256 192 192 := rfl
  rw [hd, matmul_zero_eq_dotGeneral]
  exact StackMember.dotGeneral_plain_apply none A B tt col

/-- The x product: a 256 × 2048 by 2048 × 192 product into zero is the sum over the contracted coordinate. -/
theorem matmul_x (A : FVec Ideal S256x2048 .bf16) (B : FVec Ideal S2048x192 .bf16) (tt : Fin 256) (col : Fin 192) :
    matmul dot_S256x2048_S2048x192_S256x192_1_0_0_1_n_n none A B (constant (F := Ideal) S256x192 .f32 0x00000000#32) (ix2 tt col)
      = ∑ q : Fin 2048, A (ix2 tt q) * B (ix2 q col) := by
  have hd : dot_S256x2048_S2048x192_S256x192_1_0_0_1_n_n = DotDims.plain 256 2048 192 := rfl
  rw [hd, matmul_zero_eq_dotGeneral]
  exact StackMember.dotGeneral_plain_apply none A B tt col

/-! ## The reshapes, the transposition and the broadcast, at coordinates -/

section Layout
variable {α : Type}

/-- A [256, 3, 64] array flattened to 256 × 192: column k is the pair (k / 64, k % 64). -/
theorem cast_seed_flat (v : S256x3x64.Idx → α) (h : S256x3x64.ShapeCasts S256x192) (tt : Fin 256) (k : Fin 192) :
    shapeCast S256x192 v h (ix2 tt k)
      = v (ix3 tt ⟨k.val / 64, by have := k.isLt; omega⟩ ⟨k.val % 64, Nat.mod_lt _ (by decide)⟩) :=
  shapeCast_apply v h _ _ (by
    rw [Shape.rowMajor_val_three, Shape.rowMajor_val_two]
    show (tt.val * 3 + k.val / 64) * 64 + k.val % 64 = tt.val * 192 + k.val
    omega)

/-- A [256, 32, 64] array flattened to 256 × 2048: column q is the pair (q / 64, q % 64). -/
theorem cast_x_flat (v : S256x32x64.Idx → α) (h : S256x32x64.ShapeCasts S256x2048) (tt : Fin 256) (q : Fin 2048) :
    shapeCast S256x2048 v h (ix2 tt q)
      = v (ix3 tt ⟨q.val / 64, by have := q.isLt; omega⟩ ⟨q.val % 64, Nat.mod_lt _ (by decide)⟩) :=
  shapeCast_apply v h _ _ (by
    rw [Shape.rowMajor_val_three, Shape.rowMajor_val_two]
    show (tt.val * 32 + q.val / 64) * 64 + q.val % 64 = tt.val * 2048 + q.val
    omega)

/-- The first two axes of a [32, 256, 64] array exchanged. -/
theorem transpose_x (v : S32x256x64.Idx → α) (h : S32x256x64.Transposes [1, 0, 2] S256x32x64)
    (tt : Fin 256) (p : Fin 32) (e : Fin 64) :
    transpose S256x32x64 [1, 0, 2] v h (ix3 tt p e) = v (ix3 p tt e) :=
  transpose_apply _ v h _ _ fun b => match b with | ⟨0, _⟩ => rfl | ⟨1, _⟩ => rfl | ⟨2, _⟩ => rfl

/-- A 256 × 192 matrix read as [256, 3, 64]: entry (t, c, j) is column 64 c + j. -/
theorem cast_acc_split (v : S256x192.Idx → α) (h : S256x192.ShapeCasts S256x3x64) (tt : Fin 256) (c : Fin 3) (j : Fin 64) :
    shapeCast S256x3x64 v h (ix3 tt c j)
      = v (ix2 tt ⟨c.val * 64 + j.val, by have := c.isLt; have := j.isLt; omega⟩) :=
  shapeCast_apply v h _ _ (by
    rw [Shape.rowMajor_val_two, Shape.rowMajor_val_three]
    show tt.val * 192 + (c.val * 64 + j.val) = (tt.val * 3 + c.val) * 64 + j.val
    omega)

/-- The one [3, 64] slab laid at every one of the 256 time steps. -/
theorem broadcast_bias (v : S1x3x64.Idx → α) (h : S1x3x64.Broadcasts S256x3x64) (tt : Fin 256) (c : Fin 3) (j : Fin 64) :
    broadcastTo S256x3x64 v h (ix3 tt c j) = v (ix3 (0 : Fin 1) c j) :=
  broadcastTo_apply v h _ _ fun a => match a with | ⟨0, _⟩ => rfl | ⟨1, _⟩ => rfl | ⟨2, _⟩ => rfl

end Layout

/-! ## The payloads -/

/-- The first payload: the flattened seed block times the seed weights. -/
theorem pay1_apply (v19 : Vec Ideal S1x256x3x64 .f32) (v23 : Vec Ideal S192x192 .bf16) (tt : Fin 256) (col : Fin 192) :
    k0_pay1 (F := Ideal) v19 v23 (ix2 tt col)
      = ∑ k : Fin 192, v19 (ix4 (0 : Fin 1) tt ⟨k.val / 64, by have := k.isLt; omega⟩ ⟨k.val % 64, Nat.mod_lt _ (by decide)⟩) * v23 (ix2 k col) := by
  unfold k0_pay1
  refine (congrFun (shapeCast_self _ _) _).trans ?_
  refine (matmul_seed _ _ tt col).trans ?_
  refine Finset.sum_congr rfl fun k _ => ?_
  refine congrArg₂ (· * ·) ?_ ?_
  · refine (truncf_apply (φ := .f32) (ψ := .bf16) _ bitsLt_bf16_f32 _).trans ?_
    refine (cast_seed_flat _ _ tt k).trans ?_
    exact shapeCast_1abc_abc_apply _ _ _ _ _
  · exact congrFun (shapeCast_self _ _) _

/-- The second payload: what the accumulator held, plus the rearranged x block times its weights. -/
theorem pay2_apply (v3 : Vec Ideal S1x32x256x64 .f32) (v8 : Vec Ideal S2048x192 .bf16) (v10 : Vec Ideal S256x192 .f32) (tt : Fin 256) (col : Fin 192) :
    k0_pay2 (F := Ideal) v3 v8 v10 (ix2 tt col)
      = v10 (ix2 tt col) + ∑ q : Fin 2048, v3 (ix4 (0 : Fin 1) ⟨q.val / 64, by have := q.isLt; omega⟩ tt ⟨q.val % 64, Nat.mod_lt _ (by decide)⟩) * v8 (ix2 q col) := by
  unfold k0_pay2
  refine (congrFun (shapeCast_self _ _) _).trans ?_
  refine (addf_apply _ _ _).trans ?_
  refine congrArg (v10 (ix2 tt col) + ·) ?_
  refine (matmul_x _ _ tt col).trans ?_
  refine Finset.sum_congr rfl fun q _ => ?_
  refine congrArg₂ (· * ·) ?_ ?_
  · refine (truncf_apply (φ := .f32) (ψ := .bf16) _ bitsLt_bf16_f32 _).trans ?_
    refine (cast_x_flat _ _ tt q).trans ?_
    refine (transpose_x _ _ tt _ _).trans ?_
    exact shapeCast_1abc_abc_apply _ _ _ _ _
  · exact congrFun (shapeCast_self _ _) _

/-- The third payload: the accumulator read by channel and node, plus the bias of that channel and node. -/
theorem pay3_apply (v19 : Vec Ideal S256x192 .f32) (v21 : Vec Ideal S3x64 .f32) (tt : Fin 256) (c : Fin 3) (j : Fin 64) :
    k0_pay3 (F := Ideal) v19 v21 (ix4 (0 : Fin 1) tt c j)
      = v19 (ix2 tt ⟨c.val * 64 + j.val, by have := c.isLt; have := j.isLt; omega⟩) + v21 (ix2 c j) := by
  unfold k0_pay3
  refine (shapeCast_abc_1abc_apply _ _ (0 : Fin 1) tt c j).trans ?_
  refine (addf_apply _ _ _).trans ?_
  refine congrArg₂ (· + ·) ?_ ?_
  · exact cast_acc_split _ _ tt c j
  · refine (broadcast_bias _ _ tt c j).trans ?_
    refine (shapeCast_ab_1ab_apply _ _ (0 : Fin 1) c j).trans ?_
    exact congrFun (shapeCast_self _ _) _

end Cert.KernelIdeal.Payloads

end
-- ==== Proof.LibSumSplit.lean ====
import Mathlib.Algebra.BigOperators.Fin
import Mathlib.Logic.Equiv.Fin.Basic

/-!
A sum over `Fin N` with `N = a · b` is the double sum over the `a` consecutive runs of `b` indices:
index `b · t + q` is the `q`-th of run `t`.
-/

open scoped BigOperators

namespace Cert.SumSplit

/-- Index `b · t + q` of run `t` lies below `a · b`. -/
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

/-- THE SPLIT: `∑ n < a·b, f n = ∑ t < a, ∑ q < b, f (b·t + q)`. -/
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.Spec.lean ====
/-
  The mathematics of the kernel and of its reference, over the extended reals.

  Both programs compute, for a batch entry `n`, a time step `t`, an output channel `c` and a new node `j`,

      out[n, t, c, j] = ∑ k < 16576, mix[n, t, k] · W[j, c, k]  +  b[j, c]

  where the row `mix[n, t, ·]` is the 16384 entries `x[n, k / 64, t, k % 64]` followed by the 192 entries
  `seeds[n, t, k' / 64, k' % 64]`. The reference contracts the whole row at once. The kernel first takes the 192
  seed terms, then adds eight runs of 2048 consecutive `x` terms one after the other (`acc`), and adds the bias last.
  Addition of extended reals is commutative and associative, so the two groupings of the one sum agree (`acc_last`):
  no finiteness of the inputs is needed.
-/
import Idealize.ShloMosaic.PureOps.Ideal
import Idealize.ShloMosaic.Lib.ValueIdx
import Mathlib.Algebra.BigOperators.Fin
import proofs.«108888_j54494545051886_1_alg».proof.Proof.LibSumSplit

noncomputable section

namespace Cert.Spec

open Idealize.ShloMosaic Idealize.ShloMosaic.ValueIdx
open scoped BigOperators

/-- The shapes of the four arguments and of the result. -/
abbrev SX : Shape := ⟨4, ![16, 256, 256, 64]⟩
abbrev SSeeds : Shape := ⟨4, ![16, 256, 3, 64]⟩
abbrev SW : Shape := ⟨3, ![64, 3, 16576]⟩
abbrev SB : Shape := ⟨2, ![64, 3]⟩

/-- Position `q` of run `kb` among the `x` terms of a contracted row. -/
def kx (kb : Fin 8) (q : Fin 2048) : Fin 16576 :=
  ⟨2048 * kb.val + q.val, by have := kb.isLt; have := q.isLt; omega⟩

/-- Position `k` among the seed terms of a contracted row: after the 16384 `x` terms. -/
def ks (k : Fin 192) : Fin 16576 := ⟨16384 + k.val, by have := k.isLt; omega⟩

/-- Entry `k` of the row that is contracted against the weights: channel-major `x`, then the seeds. -/
def mix (x : SX.Idx → EReal) (seeds : SSeeds.Idx → EReal) (n : Fin 16) (t : Fin 256) (k : Fin 16576) : EReal :=
  if h : k.val < 16384 then x (ix4 n ⟨k.val / 64, by omega⟩ t ⟨k.val % 64, by omega⟩)
  else seeds (ix4 n t ⟨(k.val - 16384) / 64, by have := k.isLt; omega⟩ ⟨(k.val - 16384) % 64, by omega⟩)

/-- Term `k` of the contraction for output entry `(n, t, c, j)`. -/
def term (x : SX.Idx → EReal) (seeds : SSeeds.Idx → EReal) (W : SW.Idx → EReal) (n : Fin 16) (t : Fin 256) (c : Fin 3)
    (j : Fin 64) (k : Fin 16576) : EReal :=
  mix x seeds n t k * W (ix3 j c k)

/-- The kernel's accumulator after reduction step `kb`: the seed terms, then runs `0 … kb` of the `x` terms, each
    run added to what the steps before left. -/
def acc (f : Fin 16576 → EReal) : (kb : ℕ) → kb < 8 → EReal
  | 0, h => (∑ k : Fin 192, f (ks k)) + ∑ q : Fin 2048, f (kx ⟨0, h⟩ q)
  | kb + 1, h => acc f kb (Nat.lt_of_succ_lt h) + ∑ q : Fin 2048, f (kx ⟨kb + 1, h⟩ q)

/-- The accumulator after step `kb` is the seed terms plus the first `kb + 1` runs. -/
theorem acc_eq (f : Fin 16576 → EReal) : ∀ (kb : ℕ) (h : kb < 8),
    acc f kb h = (∑ k : Fin 192, f (ks k))
      + ∑ t : Fin (kb + 1), ∑ q : Fin 2048, f (kx ⟨t.val, lt_of_lt_of_le t.isLt h⟩ q)
  | 0, h => by
    rw [acc, Fin.sum_univ_one]
    rfl
  | kb + 1, h => by
    rw [acc, acc_eq f kb (Nat.lt_of_succ_lt h), Fin.sum_univ_castSucc (n := kb + 1), add_assoc]
    rfl

/-- A sum over `a + b` indices is the sum over the first `a` plus the sum over the last `b`. -/
theorem sum_head_tail {M : Type*} [AddCommMonoid M] (a b N : ℕ) (h : a + b = N) (f : Fin N → M) :
    ∑ k, f k = (∑ i : Fin a, f ⟨i.val, by have := i.isLt; omega⟩) + ∑ i : Fin b, f ⟨a + i.val, by have := i.isLt; omega⟩ := by
  subst h
  rw [Fin.sum_univ_add]
  rfl

/-- After the last step the accumulator holds the whole contraction: the seed terms and the eight runs of
    `x` terms are exactly the 16576 terms, each once. -/
theorem acc_last (f : Fin 16576 → EReal) : acc f 7 (by decide) = ∑ k, f k := by
  rw [acc_eq, sum_head_tail 16384 192 16576 rfl f, add_comm,
    Cert.SumSplit.sum_split 8 2048 16384 rfl (fun i : Fin 16384 => f ⟨i.val, by have := i.isLt; omega⟩)]
  rfl

/-- THE RESULT, entry by entry: the accumulator after the last step, plus the bias of node `j` and channel `c`. -/
def G (x : SX.Idx → EReal) (seeds : SSeeds.Idx → EReal) (W : SW.Idx → EReal) (b : SB.Idx → EReal) : SSeeds.Idx → EReal :=
  fun i => acc (term x seeds W (i 0) (i 1) (i 2) (i 3)) 7 (by decide) + b (ix2 (i 3) (i 2))

/-- The result as one contraction of the mixed row against the weights, plus the bias. -/
theorem G_apply (x : SX.Idx → EReal) (seeds : SSeeds.Idx → EReal) (W : SW.Idx → EReal) (b : SB.Idx → EReal) (i : SSeeds.Idx) :
    G x seeds W b i = (∑ k : Fin 16576, term x seeds W (i 0) (i 1) (i 2) (i 3) k) + b (ix2 (i 3) (i 2)) := by
  rw [G, acc_last]

end Cert.Spec

end
-- ==== Proof.Blocks.lean ====
/-
  What the kernel's windows show the body at a grid point, read off the argument arrays.

  Grid point `t` (of 128) is reduction step `t % 8` of batch entry `t / 8`. There the body sees: channels
  `32·(t % 8) … 32·(t % 8) + 31` of `x[t / 8]`; all of `seeds[t / 8]`; rows `2048·(t % 8) … + 2047` of the re-laid weight
  matrix, whose entry `(r, col)` is `W[col % 64, col / 64, r]`; its last 192 rows `16384 …` as the seed weights; and
  the transposed bias. So a product of an `x` entry with a weight entry the body forms IS one term of the contraction
  the specification sums, and likewise for the seeds.
-/
import proofs.«108888_j54494545051886_1_alg».proof.Proof.Gen.KernelIdeal.Frame
import proofs.«108888_j54494545051886_1_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- The four argument arrays as launched, at their literal types. -/
abbrev xA (c : Dev nD) : Cert.Spec.SX.Idx → EReal := m ((c : Thread nD τ).loc main_arg0)
abbrev seedsA (c : Dev nD) : Cert.Spec.SSeeds.Idx → EReal := m ((c : Thread nD τ).loc main_arg1)
abbrev wA (c : Dev nD) : Cert.Spec.SW.Idx → EReal := m ((c : Thread nD τ).loc main_arg2)
abbrev bA (c : Dev nD) : Cert.Spec.SB.Idx → EReal := m ((c : Thread nD τ).loc main_arg3)

/-- The blocks the body is given at point `t`, at their literal types. -/
abbrev xblk (c : Dev nD) (t : Fin cfg0.N) : S1x32x256x64.Idx → EReal := iblk m c 0 t
abbrev sblk (c : Dev nD) (t : Fin cfg0.N) : S1x256x3x64.Idx → EReal := iblk m c 1 t
abbrev wxblk (c : Dev nD) (t : Fin cfg0.N) : S2048x192.Idx → EReal := iblk m c 2 t
abbrev wsblk (c : Dev nD) (t : Fin cfg0.N) : S192x192.Idx → EReal := iblk m c 3 t
abbrev bblk (c : Dev nD) (t : Fin cfg0.N) : S3x64.Idx → EReal := iblk m c 4 t

/-- The printed index maps over the grid: the batch entry is `t / 8`, the reduction step `t % 8`. -/
theorem idx_facts : ∀ t : Fin cfg0.N,
    win0_0.index t (0 : Fin 4) = t.val / 8 ∧ win0_0.index t (1 : Fin 4) = t.val % 8
    ∧ win0_0.index t (2 : Fin 4) = 0 ∧ win0_0.index t (3 : Fin 4) = 0
    ∧ win0_1.index t (0 : Fin 4) = t.val / 8 ∧ win0_1.index t (1 : Fin 4) = 0
    ∧ win0_1.index t (2 : Fin 4) = 0 ∧ win0_1.index t (3 : Fin 4) = 0
    ∧ win0_2.index t (0 : Fin 2) = t.val % 8 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The `x` block at point `t`: channel `cc` of the block is channel `32·(t % 8) + cc` of batch entry `t / 8`. -/
theorem xblk_apply (c : Dev nD) (t : Fin cfg0.N) (n : Fin 16) (hn : n.val = t.val / 8) (ch : Fin 256) (cc : Fin 32)
    (hch : ch.val = 32 * (t.val % 8) + cc.val) (tt : Fin 256) (v : Fin 64) :
    xblk m c t (ix4 (0 : Fin 1) cc tt v) = xA m c (ix4 n ch tt v) := by
  obtain ⟨e0, e1, e2, e3, -⟩ := idx_facts t
  show V m c main_arg0 (((cfg0.win 0).blk t).view.emb (ix4 (0 : Fin 1) cc tt v)) = _
  rw [V_main_arg0]
  refine congrArg (xA m c) (funext fun a => Fin.ext ?_)
  match a with
  | ⟨0, _⟩ => show win0_0.index t (0 : Fin 4) * 1 + 1 * 0 = n.val; omega
  | ⟨1, _⟩ => show win0_0.index t (1 : Fin 4) * 32 + 1 * cc.val = ch.val; omega
  | ⟨2, _⟩ => show win0_0.index t (2 : Fin 4) * 256 + 1 * tt.val = tt.val; omega
  | ⟨3, _⟩ => show win0_0.index t (3 : Fin 4) * 64 + 1 * v.val = v.val; omega

/-- The seeds block at point `t` is batch entry `t / 8` of the seeds. -/
theorem sblk_apply (c : Dev nD) (t : Fin cfg0.N) (n : Fin 16) (hn : n.val = t.val / 8) (tt : Fin 256) (sc : Fin 3)
    (sv : Fin 64) :
    sblk m c t (ix4 (0 : Fin 1) tt sc sv) = seedsA m c (ix4 n tt sc sv) := by
  obtain ⟨-, -, -, -, e0, e1, e2, e3, -⟩ := idx_facts t
  show V m c main_arg1 (((cfg0.win 1).blk t).view.emb (ix4 (0 : Fin 1) tt sc sv)) = _
  rw [V_main_arg1]
  refine congrArg (seedsA m c) (funext fun a => Fin.ext ?_)
  match a with
  | ⟨0, _⟩ => show win0_1.index t (0 : Fin 4) * 1 + 1 * 0 = n.val; omega
  | ⟨1, _⟩ => show win0_1.index t (1 : Fin 4) * 256 + 1 * tt.val = tt.val; omega
  | ⟨2, _⟩ => show win0_1.index t (2 : Fin 4) * 3 + 1 * sc.val = sc.val; omega
  | ⟨3, _⟩ => show win0_1.index t (3 : Fin 4) * 64 + 1 * sv.val = sv.val; omega

/-! ## The arrays the host prepares before the call -/

/-- The weights re-laid as a 16576 × 192 matrix: row `r` is contraction position `r`, column `col` is output channel
    `col / 64` of node `col % 64`. -/
def wT (c : Dev nD) : S16576x192.Idx → EReal :=
  shapeCast S16576x192 (transpose S16576x3x64 [2, 1, 0] (wA m c) transposes_S64x3x16576_S16576x3x64_2_1_0)
    shapeCasts_S16576x3x64_S16576x192

theorem wT_apply (c : Dev nD) (r : Fin 16576) (col : Fin 192) (cc : Fin 3) (j : Fin 64) (hc : cc.val = col.val / 64)
    (hj : j.val = col.val % 64) :
    wT m c (ix2 r col) = wA m c (ix3 j cc r) := by
  unfold wT
  refine (shapeCast_apply _ shapeCasts_S16576x3x64_S16576x192 (ix2 r col) (ix3 r cc j) ?_).trans ?_
  · rw [Shape.rowMajor_val_three, Shape.rowMajor_val_two]
    show (r.val * 3 + cc.val) * 64 + j.val = r.val * 192 + col.val
    omega
  · exact transpose_apply [2, 1, 0] (wA m c) transposes_S64x3x16576_S16576x3x64_2_1_0 (ix3 r cc j) (ix3 j cc r)
      (fun b => match b with
        | ⟨0, _⟩ => rfl
        | ⟨1, _⟩ => rfl
        | ⟨2, _⟩ => rfl)

/-- The `x` weights the call is given: the first 16384 rows of the re-laid matrix. -/
theorem wx_eq (c : Dev nD) :
    (V m c main_v3 : S16384x192.Idx → EReal)
      = (truncf (F := Ideal) .bf16 (extractStridedSlice S16384x192 ![0, 0] (wT m c) slices_S16576x192_S16384x192_0_0) bitsLt_bf16_f32 : S16384x192.Idx → EReal) := by
  unfold wT
  dsimp only [V, hostOps0]
  after_results <;> rfl

/-- The seed weights the call is given: its last 192 rows. -/
theorem ws_eq (c : Dev nD) :
    (V m c main_v5 : S192x192.Idx → EReal)
      = (truncf (F := Ideal) .bf16 (extractStridedSlice S192x192 ![16384, 0] (wT m c) slices_S16576x192_S192x192_16384_0) bitsLt_bf16_f32 : S192x192.Idx → EReal) := by
  unfold wT
  dsimp only [V, hostOps0]
  after_results <;> rfl

/-- The bias the call is given: transposed. -/
theorem bT_eq (c : Dev nD) :
    (V m c main_v6 : S3x64.Idx → EReal) = transpose S3x64 [1, 0] (bA m c) transposes_S64x3_S3x64_1_0 := by
  dsimp only [V, hostOps0]
  after_results <;> rfl

theorem wx_apply (c : Dev nD) (r : Fin 16384) (col : Fin 192) (k : Fin 16576) (hk : k.val = r.val) (cc : Fin 3) (j : Fin 64)
    (hc : cc.val = col.val / 64) (hj : j.val = col.val % 64) :
    (V m c main_v3 : S16384x192.Idx → EReal) (ix2 r col) = wA m c (ix3 j cc k) := by
  rw [wx_eq]
  refine (extractStridedSlice_apply ![0, 0] (wT m c) slices_S16576x192_S16384x192_0_0 (ix2 r col) (ix2 k col)
    (fun a => match a with
      | ⟨0, _⟩ => by show k.val = 0 + r.val; omega
      | ⟨1, _⟩ => by show col.val = 0 + col.val; omega)).trans ?_
  exact wT_apply m c k col cc j hc hj

theorem ws_apply (c : Dev nD) (r : Fin 192) (col : Fin 192) (k : Fin 16576) (hk : k.val = 16384 + r.val) (cc : Fin 3)
    (j : Fin 64) (hc : cc.val = col.val / 64) (hj : j.val = col.val % 64) :
    (V m c main_v5 : S192x192.Idx → EReal) (ix2 r col) = wA m c (ix3 j cc k) := by
  rw [ws_eq]
  refine (extractStridedSlice_apply ![16384, 0] (wT m c) slices_S16576x192_S192x192_16384_0 (ix2 r col) (ix2 k col)
    (fun a => match a with
      | ⟨0, _⟩ => by show k.val = 16384 + r.val; omega
      | ⟨1, _⟩ => by show col.val = 0 + col.val; omega)).trans ?_
  exact wT_apply m c k col cc j hc hj

theorem bT_apply (c : Dev nD) (cc : Fin 3) (j : Fin 64) :
    (V m c main_v6 : S3x64.Idx → EReal) (ix2 cc j) = bA m c (ix2 j cc) := by
  rw [bT_eq]
  exact transpose_apply [1, 0] (bA m c) transposes_S64x3_S3x64_1_0 (ix2 cc j) (ix2 j cc)
    (fun b => match b with
      | ⟨0, _⟩ => rfl
      | ⟨1, _⟩ => rfl)

/-! ## The weight and bias blocks at a point -/

/-- The `x`-weights block at point `t`: rows `2048·(t % 8) …` of the first 16384. -/
theorem wxblk_apply (c : Dev nD) (t : Fin cfg0.N) (q : Fin 2048) (col : Fin 192) (r : Fin 16384)
    (hr : r.val = 2048 * (t.val % 8) + q.val) :
    wxblk m c t (ix2 q col) = (V m c main_v3 : S16384x192.Idx → EReal) (ix2 r col) := by
  obtain ⟨-, -, -, -, -, -, -, -, e0, e1, -⟩ := idx_facts t
  show V m c main_v3 (((cfg0.win 2).blk t).view.emb (ix2 q col)) = _
  refine congrArg (V m c main_v3 : S16384x192.Idx → EReal) (funext fun a => Fin.ext ?_)
  match a with
  | ⟨0, _⟩ => show win0_2.index t (0 : Fin 2) * 2048 + 1 * q.val = r.val; omega
  | ⟨1, _⟩ => show win0_2.index t (1 : Fin 2) * 192 + 1 * col.val = col.val; omega

/-- The seed-weights block is the whole seed-weights array at every point. -/
theorem wsblk_apply (c : Dev nD) (t : Fin cfg0.N) (k : Fin 192) (col : Fin 192) :
    wsblk m c t (ix2 k col) = (V m c main_v5 : S192x192.Idx → EReal) (ix2 k col) := by
  obtain ⟨-, -, -, -, -, -, -, -, -, -, e0, e1, -⟩ := idx_facts t
  show V m c main_v5 (((cfg0.win 3).blk t).view.emb (ix2 k col)) = _
  refine congrArg (V m c main_v5 : S192x192.Idx → EReal) (funext fun a => Fin.ext ?_)
  match a with
  | ⟨0, _⟩ => show win0_3.index t (0 : Fin 2) * 192 + 1 * k.val = k.val; omega
  | ⟨1, _⟩ => show win0_3.index t (1 : Fin 2) * 192 + 1 * col.val = col.val; omega

/-- The bias block is the whole transposed bias at every point. -/
theorem bblk_apply (c : Dev nD) (t : Fin cfg0.N) (cc : Fin 3) (j : Fin 64) :
    bblk m c t (ix2 cc j) = bA m c (ix2 j cc) := by
  obtain ⟨-, -, -, -, -, -, -, -, -, -, -, -, e0, e1⟩ := idx_facts t
  refine Eq.trans ?_ (bT_apply m c cc j)
  show V m c main_v6 (((cfg0.win 4).blk t).view.emb (ix2 cc j)) = _
  refine congrArg (V m c main_v6 : S3x64.Idx → EReal) (funext fun a => Fin.ext ?_)
  match a with
  | ⟨0, _⟩ => show win0_4.index t (0 : Fin 2) * 3 + 1 * cc.val = cc.val; omega
  | ⟨1, _⟩ => show win0_4.index t (1 : Fin 2) * 64 + 1 * j.val = j.val; omega

/-! ## The body's products are the specification's terms -/

/-- At point `t` (step `kb = t % 8` of batch entry `n = t / 8`) the product the body forms at position `q` of its
    2048-long contraction, for output row `tt` and column `col`, is term `2048·kb + q` of the specification's
    contraction for `(n, tt, col / 64, col % 64)`. -/
theorem xterm (c : Dev nD) (t : Fin cfg0.N) (n : Fin 16) (kb : Fin 8) (hn : n.val = t.val / 8) (hkb : kb.val = t.val % 8)
    (tt : Fin 256) (col : Fin 192) (cc : Fin 3) (j : Fin 64) (hc : cc.val = col.val / 64) (hj : j.val = col.val % 64)
    (q : Fin 2048) :
    xblk m c t (ix4 (0 : Fin 1) ⟨q.val / 64, by have := q.isLt; omega⟩ tt ⟨q.val % 64, Nat.mod_lt _ (by decide)⟩)
        * wxblk m c t (ix2 q col)
      = Cert.Spec.term (xA m c) (seedsA m c) (wA m c) n tt cc j (Cert.Spec.kx kb q) := by
  have hq := q.isLt
  have hk8 := kb.isLt
  rw [xblk_apply m c t n hn ⟨32 * (t.val % 8) + q.val / 64, by omega⟩ ⟨q.val / 64, by omega⟩ rfl,
    wxblk_apply m c t q col ⟨2048 * (t.val % 8) + q.val, by omega⟩ rfl,
    wx_apply m c _ col (Cert.Spec.kx kb q) (by show 2048 * kb.val + q.val = 2048 * (t.val % 8) + q.val; omega) cc j hc hj]
  unfold Cert.Spec.term Cert.Spec.mix
  rw [dif_pos (by show 2048 * kb.val + q.val < 16384; omega)]
  refine congrArg (· * _) (congrArg (xA m c) (funext fun a => Fin.ext ?_))
  match a with
  | ⟨0, _⟩ => rfl
  | ⟨1, _⟩ => show 32 * (t.val % 8) + q.val / 64 = (2048 * kb.val + q.val) / 64; omega
  | ⟨2, _⟩ => rfl
  | ⟨3, _⟩ => show q.val % 64 = (2048 * kb.val + q.val) % 64; omega

/-- At a point of batch entry `n` the product the body forms at position `k` of its 192-long seed contraction is
    seed term `k` of the specification's contraction. -/
theorem sterm (c : Dev nD) (t : Fin cfg0.N) (n : Fin 16) (hn : n.val = t.val / 8)
    (tt : Fin 256) (col : Fin 192) (cc : Fin 3) (j : Fin 64) (hc : cc.val = col.val / 64) (hj : j.val = col.val % 64)
    (k : Fin 192) :
    sblk m c t (ix4 (0 : Fin 1) tt ⟨k.val / 64, by have := k.isLt; omega⟩ ⟨k.val % 64, Nat.mod_lt _ (by decide)⟩)
        * wsblk m c t (ix2 k col)
      = Cert.Spec.term (xA m c) (seedsA m c) (wA m c) n tt cc j (Cert.Spec.ks k) := by
  have hk := k.isLt
  rw [sblk_apply m c t n hn, wsblk_apply m c t k col, ws_apply m c k col (Cert.Spec.ks k) rfl cc j hc hj]
  unfold Cert.Spec.term Cert.Spec.mix
  rw [dif_neg (by show ¬(16384 + k.val < 16384); omega)]
  refine congrArg (· * _) (congrArg (seedsA m c) (funext fun a => Fin.ext ?_))
  match a with
  | ⟨0, _⟩ => rfl
  | ⟨1, _⟩ => rfl
  | ⟨2, _⟩ => show k.val / 64 = (16384 + k.val - 16384) / 64; omega
  | ⟨3, _⟩ => show k.val % 64 = (16384 + k.val - 16384) % 64; omega

end Cert.KernelIdeal.Blocks

end
-- ==== Proof.Accum.lean ====
/-
  The kernel's result array as one function of the argument arrays.

  Point `t` of the grid is reduction step `t % 8` of batch entry `t / 8`. By induction on the point, the accumulator
  the body carries holds after point `t` the specification's partial contraction `acc … (t % 8)` of batch entry `t / 8`
  (`scratch_eq`): the first step of an entry stores the seed terms plus run 0 of the `x` terms whatever the accumulator
  held, each later step adds its own run. At the last step of an entry the body writes the accumulator plus the bias to
  the entry's output block, and only then is the block written back; the sixteen blocks written back tile the result
  array, which therefore ends at the specification `G` of the arguments (`final`).
-/
import proofs.«108888_j54494545051886_1_alg».proof.Proof.Gen.KernelIdeal.Value
import proofs.«108888_j54494545051886_1_alg».proof.Proof.Pieces
import proofs.«108888_j54494545051886_1_alg».proof.Proof.Payloads
import proofs.«108888_j54494545051886_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Blocks Cert.KernelIdeal.Payloads

variable (m : (ℓ : Loc nD τ sig) → Buf (Elt Ideal) ℓ) (ρ : Dev nD → PrngReg)

/-- The accumulator's contents after reduction step `kb` of batch entry `n`: at row `tt` and column `col` the
    specification's partial contraction for `(n, tt, col / 64, col % 64)`. -/
def accV (c : Dev nD) (n : Fin 16) (kb : ℕ) (h : kb < 8) : S256x192.Idx → EReal := fun i =>
  Cert.Spec.acc (Cert.Spec.term (xA m c) (seedsA m c) (wA m c) n (i 0)
    ⟨(i 1).val / 64, by have h1 : (i 1).val < 192 := (i 1).isLt; omega⟩
    ⟨(i 1).val % 64, Nat.mod_lt _ (by decide)⟩) kb h

/-- The specification of the arguments as launched. -/
abbrev Gk (c : Dev nD) : S16x256x3x64.Idx → EReal := Cert.Spec.G (xA m c) (seedsA m c) (wA m c) (bA m c)

/-- THE FIRST STEP of an entry: the seed product, then run 0 of the `x` terms added to it. -/
theorem step_first (c : Dev nD) (t : Fin cfg0.N) (n : Fin 16) (hn : n.val = t.val / 8) (h0 : t.val % 8 = 0) :
    k0_pay2 (F := Ideal) (xblk m c t) (wxblk m c t) (k0_pay1 (F := Ideal) (sblk m c t) (wsblk m c t))
      = accV m c n 0 (by decide) := by
  funext i
  obtain ⟨tt, col, rfl⟩ : ∃ (tt : Fin 256) (col : Fin 192), i = ix2 tt col := ⟨i 0, i 1, eq_ix2 i⟩
  rw [pay2_apply, pay1_apply]
  unfold accV
  rw [Cert.Spec.acc]
  refine congrArg₂ (· + ·) (Finset.sum_congr rfl fun k _ => ?_) (Finset.sum_congr rfl fun q _ => ?_)
  · exact sterm m c t n hn tt col _ _ rfl rfl k
  · exact xterm m c t n ⟨0, by decide⟩ hn h0.symm tt col _ _ rfl rfl q

/-- A LATER STEP of an entry: its run of the `x` terms added to what the step before left. -/
theorem step_next (c : Dev nD) (t : Fin cfg0.N) (n : Fin 16) (hn : n.val = t.val / 8) (kb : ℕ) (h : kb + 1 < 8)
    (hkb : t.val % 8 = kb + 1) :
    k0_pay2 (F := Ideal) (xblk m c t) (wxblk m c t) (accV m c n kb (Nat.lt_of_succ_lt h)) = accV m c n (kb + 1) h := by
  funext i
  obtain ⟨tt, col, rfl⟩ : ∃ (tt : Fin 256) (col : Fin 192), i = ix2 tt col := ⟨i 0, i 1, eq_ix2 i⟩
  rw [pay2_apply]
  unfold accV
  rw [Cert.Spec.acc]
  refine congrArg₂ (· + ·) rfl (Finset.sum_congr rfl fun q _ => ?_)
  exact xterm m c t n ⟨kb + 1, h⟩ hn hkb.symm tt col _ _ rfl rfl q

/-- THE ACCUMULATOR after point `k` holds the partial contraction of step `k % 8` of entry `k / 8`: by induction on
    the point. -/
theorem scratch_eq (c : Dev nD) : ∀ (k : ℕ) (hk : k < cfg0.N) (n : Fin 16) (kb : ℕ) (hb : kb < 8),
    n.val = k / 8 → kb = k % 8 → (outsAt0 m c k hk).2 = accV m c n kb hb
  | 0, hk, n, kb, hb, hn, hkb => by
    subst hkb
    rw [outsAt0_A m c ⟨0, hk⟩ (Nat.zero_mod 8) (by show ¬0 % 8 = 7; decide)]
    dsimp only
    rw [Pieces.acc_A]
    exact step_first m c ⟨0, hk⟩ n hn rfl
  | k + 1, hk, n, kb, hb, hn, hkb => by
    have hN : k + 1 < 128 := lt_of_lt_of_eq hk (show cfg0.N = 128 from N_0)
    by_cases h0 : (k + 1) % 8 = 0
    · have h1 : ¬(k + 1) % 8 = 7 := by omega
      obtain rfl : kb = 0 := by omega
      rw [outsAt0_A m c ⟨k + 1, hk⟩ h0 h1]
      dsimp only
      rw [Pieces.acc_A]
      exact step_first m c ⟨k + 1, hk⟩ n hn h0
    · obtain ⟨kb', rfl⟩ : ∃ kb', kb = kb' + 1 := ⟨kb - 1, by omega⟩
      have ih := scratch_eq c k (Nat.lt_of_succ_lt hk) n kb' (Nat.lt_of_succ_lt hb) (by omega) (by omega)
      by_cases h1 : (k + 1) % 8 = 7
      · rw [outsAt0_C m c ⟨k + 1, hk⟩ h0 h1]
        dsimp only
        rw [Pieces.acc_C]
        show k0_pay2 (F := Ideal) _ _ (outsAt0 m c k _).2 = _
        rw [ih]
        exact step_next m c ⟨k + 1, hk⟩ n hn kb' hb hkb.symm
      · rw [outsAt0_B m c ⟨k + 1, hk⟩ h0 h1]
        dsimp only
        rw [Pieces.acc_B]
        show k0_pay2 (F := Ideal) _ _ (outsAt0 m c k _).2 = _
        rw [ih]
        exact step_next m c ⟨k + 1, hk⟩ n hn kb' hb hkb.symm

/-! ## The output block of an entry, and the result array -/

/-- The output window's block index over the grid: block `t / 8` of the batch axis, the whole of the other axes. -/
theorem idx_facts5 : ∀ t : Fin cfg0.N,
    win0_5.index t (0 : Fin 4) = t.val / 8 ∧ win0_5.index t (1 : Fin 4) = 0
    ∧ win0_5.index t (2 : Fin 4) = 0 ∧ win0_5.index t (3 : Fin 4) = 0 :=
  (by decide +kernel : ∀ t : Fin grid0.N, _)

/-- The accumulator after the LAST step of an entry, as the body leaves it there. -/
theorem last_acc (c : Dev nD) (t : Fin cfg0.N) (n : Fin 16) (hn : n.val = t.val / 8) (h7 : t.val % 8 = 7) :
    k0_pay2 (F := Ideal) (xblk m c t) (wxblk m c t)
        (outsAt0 m c (t.val - 1) (Nat.lt_of_le_of_lt (Nat.sub_le _ _) t.isLt)).2
      = accV m c n 7 (by decide) := by
  rw [scratch_eq m c (t.val - 1) _ n 6 (by decide) (by omega) (by omega)]
  exact step_next m c t n hn 6 (by decide) h7

/-- The output block of entry `n`: the full contraction plus the bias, the specification at `(n, ·, ·, ·)`. -/
theorem out_apply (c : Dev nD) (t : Fin cfg0.N) (n : Fin 16) (tt : Fin 256) (cc : Fin 3) (j : Fin 64) :
    k0_pay3 (F := Ideal) (accV m c n 7 (by decide)) (bblk m c t) (ix4 (0 : Fin 1) tt cc j) = Gk m c (ix4 n tt cc j) := by
  rw [pay3_apply, bblk_apply]
  unfold Gk Cert.Spec.G accV
  refine congrArg (· + _) (congrArg (fun f => Cert.Spec.acc f 7 (by decide)) ?_)
  have h2 := cc.isLt
  have h3 := j.isLt
  refine congrArg₂ (Cert.Spec.term (xA m c) (seedsA m c) (wA m c) n tt) (Fin.ext ?_) (Fin.ext ?_)
  · show (cc.val * 64 + j.val) / 64 = cc.val; omega
  · show (cc.val * 64 + j.val) % 64 = j.val; omega

/-- WHAT A WRITE-BACK WRITES: at the last step of entry `t / 8`, that entry's block of the specification. -/
theorem flushed_eq (c : Dev nD) (t : Fin cfg0.N) (hf : (cfg0.win 5).flush t = true) :
    (dats m 0 c).flushed 5 t = ((cfg0.win 5).blk t).view.read (Elt Ideal) (Gk m c) := by
  have hN : t.val < 128 := lt_of_lt_of_eq t.isLt (show cfg0.N = 128 from N_0)
  have h7 : t.val % 8 = 7 := (flush0_5 t).mp hf
  have h0 : ¬t.val % 8 = 0 := by omega
  obtain ⟨e0, e1, e2, e3⟩ := idx_facts5 t
  rw [Value.flushed5_C m c t h0 h7, Pieces.out_C]
  funext y
  show k0_pay3 (F := Ideal) (k0_pay2 (F := Ideal) (xblk m c t) (wxblk m c t)
      (outsAt0 m c (t.val - 1) (Nat.lt_of_le_of_lt (Nat.sub_le _ _) t.isLt)).2) (bblk m c t) y
    = Gk m c (((cfg0.win 5).blk t).view.emb y)
  rw [last_acc m c t ⟨t.val / 8, by omega⟩ rfl h7]
  obtain ⟨y0, tt, cc, j, rfl⟩ : ∃ (y0 : Fin 1) (tt : Fin 256) (cc : Fin 3) (j : Fin 64), y = ix4 y0 tt cc j :=
    ⟨y 0, y 1, y 2, y 3, eq_ix4 y⟩
  obtain rfl : y0 = (0 : Fin 1) := Fin.ext (by have := y0.isLt; omega)
  refine (out_apply m c t ⟨t.val / 8, by omega⟩ tt cc j).trans (congrArg (Gk m c) (funext fun a => Fin.ext ?_))
  match a with
  | ⟨0, _⟩ => show t.val / 8 = win0_5.index t (0 : Fin 4) * 1 + 1 * 0; omega
  | ⟨1, _⟩ => show tt.val = win0_5.index t (1 : Fin 4) * 256 + 1 * tt.val; omega
  | ⟨2, _⟩ => show cc.val = win0_5.index t (2 : Fin 4) * 3 + 1 * cc.val; omega
  | ⟨3, _⟩ => show j.val = win0_5.index t (3 : Fin 4) * 64 + 1 * j.val; omega

/-- An index of the result array is in point `t`'s block iff each coordinate is in the block's range on its axis. -/
theorem mem_blk (t : Fin cfg0.N) (i : S16x256x3x64.Idx) :
    i ∈ ((cfg0.win 5).blk t).view.set ↔ ∀ a : Fin 4, win0_5.index t a * S1x256x3x64.size a ≤ (i a).val
      ∧ (i a).val < win0_5.index t a * S1x256x3x64.size a + S1x256x3x64.size a := by
  show i ∈ ((View.whole main_v7).slice (win0_5.rect t)).set ↔ _
  rw [View.set_slice_whole, Rect.mem_set_unit]
  exact Iff.rfl

/-- Every entry of the result array lies in the block written back at the last step of its batch entry. -/
theorem cover (i : S16x256x3x64.Idx) :
    ∃ t : Fin cfg0.N, (cfg0.win 5).flush t = true ∧ i ∈ ((cfg0.win 5).blk t).view.set := by
  have hi0 : (i 0).val < 16 := (i 0).isLt
  have hi1 : (i 1).val < 256 := (i 1).isLt
  have hi2 : (i 2).val < 3 := (i 2).isLt
  have hi3 : (i 3).val < 64 := (i 3).isLt
  have hlt : 8 * (i 0).val + 7 < cfg0.N := lt_of_lt_of_eq (by omega : 8 * (i 0).val + 7 < 128) (N_0).symm
  obtain ⟨t, ht⟩ : ∃ t : Fin cfg0.N, t.val = 8 * (i 0).val + 7 := ⟨⟨_, hlt⟩, rfl⟩
  obtain ⟨e0, e1, e2, e3⟩ := idx_facts5 t
  refine ⟨t, (flush0_5 t).mpr (by omega), ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 256 ≤ (i 1).val ∧ (i 1).val < win0_5.index t (1 : Fin 4) * 256 + 256; omega
  | ⟨2, _⟩ => show win0_5.index t (2 : Fin 4) * 3 ≤ (i 2).val ∧ (i 2).val < win0_5.index t (2 : Fin 4) * 3 + 3; omega
  | ⟨3, _⟩ => show win0_5.index t (3 : Fin 4) * 64 ≤ (i 3).val ∧ (i 3).val < win0_5.index t (3 : Fin 4) * 64 + 64; omega

/-- THE RESULT ARRAY after the run is the specification of the arguments. -/
theorem final (c : Dev nD) : (dats m 0 c).arrAt 5 cfg0.N = Gk m c :=
  (dats m 0 c).arrAt_eq_of_cover 5 (Gk m c) (flushed_eq m c) cover

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v7) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Accum

end
-- ==== Proof.RefBridge.lean ====
/-
  The reference side: the value the reference program stages for its result is the specification `G`.

  The reference transposes `x` to put the time step before the channel, flattens channel and feature into one axis of
  16384 entries, flattens the seeds' two last axes into 192 entries, joins the two rows into one of 16576 entries,
  contracts that row against the weights, moves the axes of the product to `(n, t, c, j)`, and adds the bias broadcast
  over `n` and `t`. Read at an index, each of these steps is a change of index; the joined row at `(n, t, k)` is the
  specification's `mix`, and the contraction is the specification's sum, term by term, after commuting the product.
-/
import proofs.«108888_j54494545051886_1_alg».proof.Proof.Gen.ReferenceIdeal.Read
import proofs.«108888_j54494545051886_1_alg».proof.Proof.Spec

noncomputable section

namespace Cert.RefBridge

open Cert.ReferenceIdeal Cert.ReferenceIdeal.Gen Cert.ReferenceIdeal.Read
open Idealize.ShloMosaic Idealize.ShloMosaic.ValueIdx
open scoped BigOperators

/-- The joined row at a position among the first 16384: the transposed and flattened `x`, that is
    `x[n, k / 64, t, k % 64]`. -/
theorem v3_left (x0 : Cert.Spec.SX.Idx → EReal) (x1 : Cert.Spec.SSeeds.Idx → EReal) (n : Fin 16) (t : Fin 256)
    (k : Fin 16576) (h : k.val < 16384) :
    val_main_v3 (F := Ideal) x0 x1 (ix3 n t k)
      = x0 (ix4 n ⟨k.val / 64, by omega⟩ t ⟨k.val % 64, by omega⟩) := by
  unfold val_main_v3
  rw [concatenate_pair_apply_left (2 : Fin S16x256x16576.rank) (val_main_v1 (F := Ideal) x0) (val_main_v2 (F := Ideal) x1)
    concatenates_S16x256x16384_S16x256x192_S16x256x16576_d2 (ix3 n t k) rfl (ix3 n t ⟨k.val, h⟩)
    (fun b => match b with
      | ⟨0, _⟩ => rfl
      | ⟨1, _⟩ => rfl
      | ⟨2, _⟩ => rfl)]
  rw [val_main_v1_apply, val_main_v0_apply]
  refine congrArg x0 (funext fun a => Fin.ext ?_)
  have hn := n.isLt
  have ht := t.isLt
  match a with
  | ⟨0, _⟩ => show ((n.val * 256 + t.val) * 16384 + k.val) / 4194304 = n.val; omega
  | ⟨1, _⟩ => show ((n.val * 256 + t.val) * 16384 + k.val) / 64 % 256 = k.val / 64; omega
  | ⟨2, _⟩ => show ((n.val * 256 + t.val) * 16384 + k.val) / 16384 % 256 = t.val; omega
  | ⟨3, _⟩ => show ((n.val * 256 + t.val) * 16384 + k.val) % 64 = k.val % 64; omega

/-- The joined row at a position after the first 16384: the flattened seeds, that is
    `seeds[n, t, k' / 64, k' % 64]` with `k' = k - 16384`. -/
theorem v3_right (x0 : Cert.Spec.SX.Idx → EReal) (x1 : Cert.Spec.SSeeds.Idx → EReal) (n : Fin 16) (t : Fin 256)
    (k : Fin 16576) (h : ¬ k.val < 16384) :
    val_main_v3 (F := Ideal) x0 x1 (ix3 n t k)
      = x1 (ix4 n t ⟨(k.val - 16384) / 64, by have := k.isLt; omega⟩ ⟨(k.val - 16384) % 64, by omega⟩) := by
  have hk := k.isLt
  unfold val_main_v3
  rw [concatenate_pair_apply_right (2 : Fin S16x256x16576.rank) (val_main_v1 (F := Ideal) x0) (val_main_v2 (F := Ideal) x1)
    concatenates_S16x256x16384_S16x256x192_S16x256x16576_d2 (ix3 n t k) rfl rfl
    (ix3 n t ⟨k.val - 16384, by omega⟩)
    (fun b => match b with
      | ⟨0, _⟩ => fun _ => rfl
      | ⟨1, _⟩ => fun _ => rfl
      | ⟨2, _⟩ => fun hb => absurd rfl hb)
    (by show (k.val - 16384) + 16384 = k.val; omega)]
  rw [val_main_v2_apply]
  refine congrArg x1 (funext fun a => Fin.ext ?_)
  have hn := n.isLt
  have ht := t.isLt
  match a with
  | ⟨0, _⟩ => show ((n.val * 256 + t.val) * 192 + (k.val - 16384)) / 49152 = n.val; omega
  | ⟨1, _⟩ => show ((n.val * 256 + t.val) * 192 + (k.val - 16384)) / 192 % 256 = t.val; omega
  | ⟨2, _⟩ => show ((n.val * 256 + t.val) * 192 + (k.val - 16384)) / 64 % 3 = (k.val - 16384) / 64; omega
  | ⟨3, _⟩ => show ((n.val * 256 + t.val) * 192 + (k.val - 16384)) % 64 = (k.val - 16384) % 64; omega

/-- The joined row is the specification's mixed row. -/
theorem v3_eq_mix (x0 : Cert.Spec.SX.Idx → EReal) (x1 : Cert.Spec.SSeeds.Idx → EReal) (n : Fin 16) (t : Fin 256)
    (k : Fin 16576) :
    val_main_v3 (F := Ideal) x0 x1 (ix3 n t k) = Cert.Spec.mix x0 x1 n t k := by
  unfold Cert.Spec.mix
  by_cases h : k.val < 16384
  · rw [dif_pos h, v3_left x0 x1 n t k h]
  · rw [dif_neg h, v3_right x0 x1 n t k h]

/-- THE REFERENCE SIDE: the reference's staged result is the specification. -/
theorem ref_eq_G (x0 : Cert.Spec.SX.Idx → EReal) (x1 : Cert.Spec.SSeeds.Idx → EReal) (x2 : Cert.Spec.SW.Idx → EReal)
    (x3 : Cert.Spec.SB.Idx → EReal) :
    Cert.ReferenceIdeal.Read.val_main_v9 (F := Ideal) x0 x1 x2 x3 = Cert.Spec.G x0 x1 x2 x3 := by
  funext i
  obtain ⟨n, t, c, j, rfl⟩ : ∃ (n : Fin 16) (t : Fin 256) (c : Fin 3) (j : Fin 64), i = ix4 n t c j :=
    ⟨i 0, i 1, i 2, i 3, eq_ix4 i⟩
  rw [Cert.Spec.G_apply, val_main_v9_apply, val_main_v5_apply, val_main_v4_apply, val_main_v8_apply, val_main_v7_apply,
    val_main_v6_apply, Ideal.addf_def]
  -- the weights' index, the joined row's index and the bias's index, in coordinates
  have eW : ∀ k : Fin 16576, lidx_main_v4 (idx_main_v5 (ix4 n t c j)) k = ix3 j c k := fun k =>
    funext fun a => match a with
      | ⟨0, _⟩ => rfl
      | ⟨1, _⟩ => rfl
      | ⟨2, _⟩ => rfl
  have eR : ∀ k : Fin 16576, ridx_main_v4 (idx_main_v5 (ix4 n t c j)) k = ix3 n t k := fun k =>
    funext fun a => match a with
      | ⟨0, _⟩ => rfl
      | ⟨1, _⟩ => rfl
      | ⟨2, _⟩ => rfl
  have eB : idx_main_v6 (idx_main_v7 (idx_main_v8 (ix4 n t c j))) = ix2 j c :=
    funext fun a => match a with
      | ⟨0, _⟩ => rfl
      | ⟨1, _⟩ => rfl
  rw [eB]
  refine congrArg (· + x3 (ix2 j c)) (Finset.sum_congr rfl fun k _ => ?_)
  rw [eW, eR, v3_eq_mix, mul_comm]
  rfl

end Cert.RefBridge

end
-- ==== Proof.lean ====
/-
  The certificate of a fused projection kernel against its jnp reference, over the extended reals.

  Both programs compute `out[n, t, c, j] = ∑ k < 16576, mix[n, t, k] · W[j, c, k] + b[j, c]`, where the row `mix[n, t, ·]`
  is the 16384 entries `x[n, k / 64, t, k % 64]` followed by the 192 entries of `seeds[n, t]`. The reference contracts
  the whole row in one product. The kernel walks a 16 × 8 grid: for each batch entry it takes the 192 seed terms first,
  then eight runs of 2048 consecutive `x` terms, one run per step, in an accumulator it carries from step to step, and
  adds the bias when it writes the entry's block at the last step. Over the extended reals a rounding to a narrower
  float format is the identity and addition is commutative and associative, so the kernel's grouping of the sum and
  the reference's are equal (Proof/Spec.lean); the inputs' finiteness is not used.

  The three frames are the generated ones (the reference's is its generated run with the result dropped); the ideal
  pass rewrote nothing, so the kernel's idealization is its own text; the value claim sets the kernel's run, read as the
  specification of its arguments (Proof/Accum.lean), beside the reference's run, read as the same specification
  (Proof/RefBridge.lean).
-/
import proofs.«108888_j54494545051886_1_alg».proof.Defs
import proofs.«108888_j54494545051886_1_alg».proof.Proof.Gen.Kernel
import proofs.«108888_j54494545051886_1_alg».proof.Proof.Gen.Kernel.Skeleton
import proofs.«108888_j54494545051886_1_alg».proof.Proof.Gen.Kernel.Launch
import proofs.«108888_j54494545051886_1_alg».proof.Proof.Gen.Kernel.Points
import proofs.«108888_j54494545051886_1_alg».proof.Proof.Gen.Kernel.Frame
import proofs.«108888_j54494545051886_1_alg».proof.Proof.Gen.KernelIdeal
import proofs.«108888_j54494545051886_1_alg».proof.Proof.Gen.KernelIdeal.Skeleton
import proofs.«108888_j54494545051886_1_alg».proof.Proof.Gen.KernelIdeal.Launch
import proofs.«108888_j54494545051886_1_alg».proof.Proof.Gen.KernelIdeal.Points
import proofs.«108888_j54494545051886_1_alg».proof.Proof.Gen.KernelIdeal.Frame
import proofs.«108888_j54494545051886_1_alg».proof.Proof.Gen.ReferenceIdeal
import proofs.«108888_j54494545051886_1_alg».proof.Proof.Gen.Pre_finite_inputs
import proofs.«108888_j54494545051886_1_alg».proof.Proof.Gen.KernelIdeal.Value
import proofs.«108888_j54494545051886_1_alg».proof.Proof.Gen.ReferenceIdeal.Run
import proofs.«108888_j54494545051886_1_alg».proof.Proof.Gen.ReferenceIdeal.Read
import proofs.«108888_j54494545051886_1_alg».proof.Proof.Accum
import proofs.«108888_j54494545051886_1_alg».proof.Proof.RefBridge
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the four arguments, the kernel's result array and the
    reference's both end at the one specification `G` of those arguments. -/
theorem algebraic : Cert.algebraic_KernelIdeal_ReferenceIdeal := by
  intro m ρ m' ρ' _ hagree
  refine ⟨fun c => Cert.KernelIdeal.Accum.Gk m c, Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2]
  exact Cert.RefBridge.ref_eq_G _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
